-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x8192 .f32) (main_arg1 : FVec F S16384x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  main_v8
-- ==== Kernel.lean ====
abbrev S16384x8192 : Shape := ⟨2, ![16384, 8192]⟩
abbrev S16384x1 : Shape := ⟨2, ![16384, 1]⟩
abbrev S256x2048 : Shape := ⟨2, ![256, 2048]⟩
abbrev S256x1 : Shape := ⟨2, ![256, 1]⟩
abbrev S256 : Shape := ⟨1, ![256]⟩
abbrev S_ : Shape := ⟨0, ![]⟩
abbrev S1x1 : Shape := ⟨2, ![1, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  natLt_1_32 : 1 < 32
  reducesTo_S16384x1_S_d0_1 : S16384x1.ReducesTo [0, 1] S_
  h_S_ : 0 < S_.numel
  shapeCasts_S_S1x1 : S_.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x8192.size a
  hwx0_0 : ∀ i : grid0.Coords, EltTy.bits .f32 = 32 ∨ (Rect.block (s := S16384x8192) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x8192.size a
  hwx0_1 : ∀ i : grid0.Coords, EltTy.bits .f32 = 32 ∨ (Rect.block (s := S16384x8192) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S_ : Shape := ⟨0, ![]⟩
abbrev S16384 : Shape := ⟨1, ![16384]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S_, .f32⟩
  | .hbm, ⟨3, _⟩ => ⟨S16384x8192, .f32⟩
  | .hbm, ⟨4, _⟩ => ⟨S16384x8192, .i1⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S_, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384, .f32⟩
  | .hbm, ⟨31, _⟩ => ⟨S16384x8192, .i32⟩
  | .hbm, ⟨32, _⟩ => ⟨S_, .i32⟩
  | .hbm, ⟨33, _⟩ => ⟨S16384, .i32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .i1⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S16384x8192 : S_.BroadcastsInDim S16384x8192 (![] : Fin 0 → Fin S16384x8192.rank)
  reducesTo_S16384x8192_S16384_d1 : S16384x8192.ReducesTo [1] S16384
  h_S_ : 0 < S_.numel
  natLt_1_32 : 1 < 32
  bcast_S_S16384 : S_.BroadcastsInDim S16384 (![] : Fin 0 → Fin S16384.rank)
  reducesTo_S16384_S_d0 : S16384.ReducesTo [0] S_
  shapeCasts_S_S1x1 : S_.ShapeCasts S1x1

variable [Facts₀]

class Facts : Prop extends Facts₀ where

variable [Facts]
-- ==== Proof.Spec.lean ====
/-
  The mathematics both programs compute, written once over the extended reals.

  For arrays `P`, `G` of 16384 rows and 8192 columns: an entry's loss is `1 − (√(p·g + ε) + √((1 − p)·(1 − g) + ε))`
  where `g ≠ 0` and zero where `g = 0`; a row's loss is the sum of its entries' losses divided by the number of its
  entries with `g ≠ 0` (by one when that number is below one), and zero for a row with no such entry; the result
  is the sum of the rows' losses divided by 16384, as a 1 × 1 array. The three float literals (zero, one, the guard
  `ε`) stay the extended reals their f32 words denote: the same words stand in both programs, so they are never
  evaluated, except that the zero word is the number zero.
-/
import Idealize.ShloMosaic.PureOps.Ideal
import Idealize.ShloMosaic.PureOps.Ideal.Laws
import Idealize.ShloMosaic.Lib.ValueIdx
import Idealize.ShloMosaic.Lib.IdealHost

noncomputable section

namespace Cert.Fidelity

open Idealize.ShloMosaic Idealize.ShloMosaic.ValueIdx

/-- Zero, one, and the guard inside both square roots, each as the extended real its f32 word denotes. -/
abbrev zeroE : EReal := Ideal.ofBits .f32 0x00000000#32
abbrev oneE : EReal := Ideal.ofBits .f32 0x3F800000#32
abbrev epsE : EReal := Ideal.ofBits .f32 0x2B8CBCCC#32

/-- The loss of one entry: `1 − (√(p·g + ε) + √((1 − p)·(1 − g) + ε))` where `g ≠ 0`, zero where `g = 0`. -/
def loss (p g : EReal) : EReal :=
  Scalar.select (Ideal.cmp .une g zeroE)
    (oneE - (Ideal.sqrt (p * g + epsE) + Ideal.sqrt ((oneE - p) * (oneE - g) + epsE))) zeroE

/-- One entry's share of its row's count: the bit `g ≠ 0`, widened to a 32-bit word and read as a number. -/
def hit (g : EReal) : EReal := ((((Ideal.cmp .une g zeroE).setWidth 32).toInt : ℝ) : EReal)

/-- It is one where `g ≠ 0` and zero where `g = 0`. -/
theorem hit_eq (g : EReal) : hit g = if Ideal.cmp .une g zeroE = 1#1 then ((1 : ℝ) : EReal) else ((0 : ℝ) : EReal) := by
  unfold hit
  rcases BitVec.eq_zero_or_eq_one (Ideal.cmp .une g zeroE) with h | h <;> rw [h] <;> simp

/-- The two arrays' common type: 16384 rows of 8192 entries. -/
abbrev Mat : Type := (⟨2, ![16384, 8192]⟩ : Shape).Idx → EReal

/-- A row's sum of losses, from the zero the sum starts at. -/
def rowSum (P G : Mat) (r : Fin 16384) : EReal := zeroE + ∑ q : Fin 8192, loss (P (ix2 r q)) (G (ix2 r q))

/-- A row's count of entries with `g ≠ 0`. -/
def rowCnt (G : Mat) (r : Fin 16384) : EReal := ∑ q : Fin 8192, hit (G (ix2 r q))

/-- A row's loss: its sum over its count (over one, when the count is below one) where the count is positive, else zero. -/
def rowLoss (P G : Mat) (r : Fin 16384) : EReal :=
  Scalar.select (Ideal.cmp .ogt (rowCnt G r) zeroE) (Ideal.div (rowSum P G r) (max (rowCnt G r) oneE)) zeroE

/-- The sum of all rows' losses, from the zero the sum starts at. -/
def total (P G : Mat) : EReal := zeroE + ∑ r : Fin 16384, rowLoss P G r

/-- The result: that sum divided by 16384 (the f32 word of 16384.0), as a 1 × 1 array. -/
def mean (P G : Mat) (h : (⟨0, ![]⟩ : Shape).ShapeCasts ⟨2, ![1, 1]⟩) : (⟨2, ![1, 1]⟩ : Shape).Idx → EReal :=
  shapeCast ⟨2, ![1, 1]⟩ (Host.divf (F := Ideal) (fun _ => total P G) (constant ⟨0, ![]⟩ .f32 0x46800000#32)) h

end Cert.Fidelity

end
-- ==== Proof.Sums.lean ====
/-
  Facts about sums that join the two programs' arithmetic.

  A sum over a row's 8192 columns is the sum over four tiles of 2048 columns (the kernel adds a row tile by tile);
  the coercion of a finite sum of reals into the extended reals is the sum of the coercions; and a 32-bit word
  whose unsigned value is the number of set bits among 8192 bits — too few to reach the sign bit — reads, as a
  signed number, the sum over those bits of one for a set bit and zero for a clear one.
-/
import proofs.«180782_j18829136626194_1_alg».proof.Proof.Spec
import Idealize.ShloMosaic.Lib.StableHlo.Predicate
import Mathlib.Algebra.BigOperators.Fin
import Mathlib.Logic.Equiv.Fin.Basic

noncomputable section

namespace Cert.Fidelity

open Idealize.ShloMosaic Idealize.ShloMosaic.ValueIdx

/-- Column `q` of 8192 is column `k` of tile `j`, `q = 2048·j + k`: the sum over the columns is the sum over the four
    tiles of the sums over each tile's 2048 columns. -/
theorem sum_tiles {M : Type*} [AddCommMonoid M] (f : Fin 8192 → M) :
    ∑ q : Fin 8192, f q
      = ∑ j : Fin 4, ∑ k : Fin 2048, f ⟨2048 * j.val + k.val, by have := j.isLt; have := k.isLt; omega⟩ := by
  show ∑ q : Fin (4 * 2048), f q = _
  rw [← finProdFinEquiv.sum_comp, Fintype.sum_prod_type]
  refine Finset.sum_congr rfl fun j _ => Finset.sum_congr rfl fun k _ => congrArg f (Fin.ext ?_)
  show k.val + 2048 * j.val = 2048 * j.val + k.val
  omega

/-- A rank-1 index is its one coordinate, -/
def idxEquiv1 {n : Nat} : (⟨1, ![n]⟩ : Shape).Idx ≃ Fin n where
  toFun i := i 0
  invFun a := ix1 a
  left_inv i := (eq_ix1 i).symm
  right_inv _ := rfl

/-- so a sum over a rank-1 array's indices is the sum over its positions. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The extended real of a finite sum of reals is the sum of the extended reals. -/
theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A word that counts the set bits among 8192 bits, read signed, is the sum of one per set bit. -/
theorem count_word (b : Fin 8192 → BitVec 1) (X : BitVec 32)
    (hX : X.toNat = (Finset.univ.filter fun q : Fin 8192 => b q = 1#1).card) :
    ((X.toInt : ℝ) : EReal) = ∑ q : Fin 8192, (if b q = 1#1 then ((1 : ℝ) : EReal) else ((0 : ℝ) : EReal)) := by
  have hc : (Finset.univ.filter fun q : Fin 8192 => b q = 1#1).card ≤ 8192 :=
    (Finset.card_le_univ _).trans (by simp)
  have hi : X.toInt = (X.toNat : ℤ) := StableHlo.Predicate.toInt_eq_toNat_of_lt (by omega)
  have hr : ((Finset.univ.filter fun q : Fin 8192 => b q = 1#1).card : ℝ)
      = ∑ q : Fin 8192, (if b q = 1#1 then (1 : ℝ) else 0) := by
    rw [Finset.sum_boole]
  rw [hi, hX, Int.cast_natCast, hr, coe_sum]
  refine Finset.sum_congr rfl fun q _ => ?_
  split_ifs <;> rfl

end Cert.Fidelity

end
-- ==== Proof.RefValue.lean ====
/-
  The reference program's result is the specification's mean.

  Read one operation at a time: an entry of the masked loss array is `loss` of the two arguments' entries; a row's
  float sum is `rowSum`; the row's count is taken in 32-bit integers — the mask widened, summed along the row,
  converted to a float — and that word, at most 8192, reads as the number of the row's entries with `g ≠ 0`, which
  is `rowCnt`; the guarded quotient is `rowLoss`; the sum over the rows and the division by 16384 are `total` and
  `mean`. The reference's `≠` is the unordered-or-unequal comparison, which on extended reals is plain `≠`.
-/
import proofs.«180782_j18829136626194_1_alg».proof.Proof.RefRead
import proofs.«180782_j18829136626194_1_alg».proof.Proof.Sums

noncomputable section

namespace Cert.ReferenceIdeal.RefValue

open Cert.ReferenceIdeal Cert.ReferenceIdeal.Gen Cert.ReferenceIdeal.ReadP Cert.Fidelity
open Idealize.ShloMosaic Idealize.ShloMosaic.ValueIdx

/-- An argument array at the ideal values. -/
abbrev Arg : Type := (⟨S16384x8192, .f32⟩ : BufTy).Contents (Elt Ideal)

/-- An entry of the masked loss array is the entry loss of the arguments' entries. -/
theorem entry_loss (P G : Arg) (i : S16384x8192.Idx) : val_main_v17 (F := Ideal) P G i = loss (P i) (G i) := by
  simp only [val_main_v17_apply, val_main_v1_apply, val_main_v0_apply, val_main_cst_apply, val_main_v16_apply,
    val_main_v15_apply, val_main_cst_4_apply, val_main_v14_apply, val_main_v5_apply, val_main_v4_apply, val_main_v2_apply,
    val_main_v3_apply, val_main_cst_0_apply, val_main_v13_apply, val_main_v12_apply, val_main_v10_apply, val_main_v7_apply,
    val_main_v6_apply, val_main_cst_1_apply, val_main_v9_apply, val_main_v8_apply, val_main_cst_2_apply, val_main_v11_apply,
    val_main_cst_3_apply, val_main_call0_v1_apply, val_main_call0_v0_apply, val_main_cst_5_apply]
  rfl

/-- The mask bit of an entry is the comparison `g ≠ 0`. -/
theorem mask_bit (G : Arg) (r : Fin 16384) (q : Fin 8192) :
    val_main_v1 (F := Ideal) G (StableHlo.Predicate.ij r q) = Ideal.cmp .une (G (ix2 r q)) zeroE := by
  have e : StableHlo.Predicate.ij r q = ix2 r q := funext fun d => by match d with | ⟨0, _⟩ => rfl | ⟨1, _⟩ => rfl
  rw [val_main_v1_apply, val_main_v0_apply, val_main_cst_apply, e]
  rfl

/-- A row's count, summed in 32-bit integers and converted, is the number of its entries with `g ≠ 0`. -/
theorem row_count (G : Arg) (r : Fin 16384) : val_main_v21 (F := Ideal) G (ix1 r) = rowCnt G r := by
  rw [val_main_v21_apply]
  show (((val_main_v20 (F := Ideal) G (ix1 r)).toInt : ℝ) : EReal) = _
  unfold val_main_v20 val_main_v19 val_main_c
  rw [count_word (fun q => val_main_v1 (F := Ideal) G (StableHlo.Predicate.ij r q)) _
    (StableHlo.Predicate.toNat_reduce_count_cols (by norm_num) (val_main_v1 (F := Ideal) G) natLt_1_32
      reducesTo_S16384x8192_S16384_d1 h_S_ (ix1 r))]
  unfold rowCnt
  refine Finset.sum_congr rfl fun q _ => ?_
  rw [hit_eq, mask_bit]

/-- A row's float sum is the row sum of the entry losses. -/
theorem row_sum (P G : Arg) (r : Fin 16384) : val_main_v18 (F := Ideal) P G (ix1 r) = rowSum P G r := by
  rw [val_main_v18_apply]
  unfold rowSum
  refine congrArg₂ (· + ·) rfl (Finset.sum_congr rfl fun q _ => ?_)
  have e : idx_main_v18 (ix1 r) q = ix2 r q := funext fun d => by match d with | ⟨0, _⟩ => rfl | ⟨1, _⟩ => rfl
  rw [entry_loss, e]

/-- A row's guarded quotient is the row loss. -/
theorem row_loss (P G : Arg) (r : Fin 16384) : val_main_v27 (F := Ideal) P G (ix1 r) = rowLoss P G r := by
  rw [val_main_v27_apply, val_main_v23_apply, val_main_v26_apply, val_main_v25_apply, row_count, row_sum,
    val_main_v22_apply, val_main_cst_7_apply, val_main_v24_apply, val_main_cst_8_apply, val_main_call1_v1_apply,
    val_main_call1_v0_apply, val_main_cst_9_apply]
  rfl

/-- The sum over the rows is the total. -/
theorem total_eq (P G : Arg) (j : S_.Idx) : val_main_v28 (F := Ideal) P G j = total P G := by
  rw [val_main_v28_apply]
  unfold total
  refine congrArg₂ (· + ·) rfl ?_
  rw [sum_idx1]
  exact Finset.sum_congr rfl fun r _ => row_loss P G r

/-- The reference's result array is the mean. -/
theorem result_eq (P G : Arg) : val_main_v30 (F := Ideal) P G = mean P G shapeCasts_S_S1x1 := by
  unfold val_main_v30 mean
  refine congrArg (fun z => shapeCast S1x1 z shapeCasts_S_S1x1) (funext fun j => ?_)
  rw [val_main_v29_apply, total_eq, val_main_cst_11_apply]
  rfl

end Cert.ReferenceIdeal.RefValue

end
-- ==== Proof.Pieces.lean ====
/-
  What one run of the kernel body leaves in the output block's buffer and in the count scratch, in each of the body's
  three cases, as pure terms of the blocks it loads — at any float family.

  With `x0`, `x1` the point's blocks of `p` and `g`, `xo` what the output's buffer held and `xs` what the scratch
  held: every case adds the tile's row sums of the masked loss to the output (`k0_pay7`) and the tile's row counts
  to the scratch (`k0_pay1` over `k0_pay6`). At a row block's first column tile both start from the zero block
  just stored (`k0_pay3`, `k0_pay4`) and not from what the buffers held; at its last column tile the output is then
  overwritten by the quotient of the two accumulated columns (`k0_pay2`). Each buffer is stored whole, so the last
  store's payload is what it holds, and a load after a store reads that store's payload.
-/
import proofs.«180782_j18829136626194_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

/-- Both buffers' stores and loads start at the origin. -/
theorem hz : (![0, 0] : Fin 2 → Nat) = fun _ => 0 := funext fun a => by fin_cases a <;> rfl

/-- FIRST column tile, the output: the zero block, then the tile's row sums added to it. -/
theorem out_A (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : cond0_0 i) (hc1 : ¬cond0_1 i)
    (x0 x1 : Vec F S256x2048 .f32) :
    out0_A_2 c i a2 h2 a3 h3 a4 h4 a5 h5 hc0 hc1 x0 x1 = k0_pay7 x0 x1 (k0_pay3 (F := F)) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread,
    h5.read_unread, View.ld_unit_zero (S := S256x2048) hz, View.ld_unit_zero (S := S256x1) hz]

/-- FIRST column tile, the scratch: the zero block, then the tile's row counts added to it. -/
theorem cnt_A (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : cond0_0 i) (hc1 : ¬cond0_1 i)
    (x0 x1 : Vec F S256x2048 .f32) :
    sout0_A_0 c i a2 h2 a3 h3 a4 h4 a5 h5 hc0 hc1 x0 x1 = k0_pay1 (k0_pay6 x1) (k0_pay4 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread,
    h5.read_unread, View.ld_unit_zero (S := S256x2048) hz, View.ld_unit_zero (S := S256x1) hz]

/-- A MIDDLE column tile, the output: the tile's row sums added to what it held. -/
theorem out_B (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : ¬cond0_0 i) (hc1 : ¬cond0_1 i)
    (x0 x1 : Vec F S256x2048 .f32) (xo xs : Vec F S256x1 .f32) :
    out0_B_2 c i a2 h2 a3 h3 a4 h4 a5 h5 hc0 hc1 x0 x1 xo xs = k0_pay7 x0 x1 xo := by
  unfold out0_B_2
  rw [View.read_writes_eq_canon _ _ _ (cover0_B_2 c i a2 h2 a3 h3 a4 h4 a5 h5 hc0 hc1 x0 x1 xo xs)]
  unfold kernelRun0_B
  dsimp only
  sl_unfold_words
  rw [View.canon_unit_zero hz]
  simp only [View.readCov_unit_zero (S := S256x1) _ hz, View.readAt_eq_ld, h2.read_unread, h3.read_unread, h4.read_unread,
    h5.read_unread, View.ld_unit_zero (S := S256x2048) hz, View.ld_unit_zero (S := S256x1) hz]

/-- A MIDDLE column tile, the scratch: the tile's row counts added to what it held. -/
theorem cnt_B (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : ¬cond0_0 i) (hc1 : ¬cond0_1 i)
    (x0 x1 : Vec F S256x2048 .f32) (xo xs : Vec F S256x1 .f32) :
    sout0_B_0 c i a2 h2 a3 h3 a4 h4 a5 h5 hc0 hc1 x0 x1 xo xs = k0_pay1 (k0_pay6 x1) xs := by
  unfold sout0_B_0
  rw [View.read_writes_eq_canon _ _ _ (scover0_B_0 c i a2 h2 a3 h3 a4 h4 a5 h5 hc0 hc1 x0 x1 xo xs)]
  unfold kernelRun0_B
  dsimp only
  sl_unfold_words
  rw [View.canon_unit_zero hz]
  simp only [View.readCov_unit_zero (S := S256x1) _ hz, View.readAt_eq_ld, h2.read_unread, h3.read_unread, h4.read_unread,
    h5.read_unread, View.ld_unit_zero (S := S256x2048) hz, View.ld_unit_zero (S := S256x1) hz]

/-- The LAST column tile, the output: both accumulators updated as in the middle, then the quotient of the two written over the sums. -/
theorem out_C (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : ¬cond0_0 i) (hc1 : cond0_1 i)
    (x0 x1 : Vec F S256x2048 .f32) (xo xs : Vec F S256x1 .f32) :
    out0_C_2 c i a2 h2 a3 h3 a4 h4 a5 h5 hc0 hc1 x0 x1 xo xs = k0_pay2 (k0_pay1 (k0_pay6 x1) xs) (k0_pay7 x0 x1 xo) := by
  unfold out0_C_2
  rw [View.read_writes_eq_canon _ _ _ (cover0_C_2 c i a2 h2 a3 h3 a4 h4 a5 h5 hc0 hc1 x0 x1 xo xs)]
  unfold kernelRun0_C
  dsimp only
  sl_unfold_words
  rw [View.canon_cons_unit_zero (S := S256x1) hz]
  simp only [View.readCov_unit_zero (S := S256x1) _ hz, View.readAt_eq_ld, h2.read_unread, h3.read_unread, h4.read_unread,
    h5.read_unread, View.ld_unit_zero (S := S256x2048) hz, View.ld_unit_zero (S := S256x1) hz]

/-- The LAST column tile, the scratch: the tile's row counts added to what it held. -/
theorem cnt_C (c : Dev nD) (i : grid0.Coords) (a2 : Memref sig .tc .vmem S256x2048 .f32) (h2 : a2.IsWhole)
    (a3 : Memref sig .tc .vmem S256x2048 .f32) (h3 : a3.IsWhole) (a4 : Memref sig .tc .vmem S256x1 .f32) (h4 : a4.IsWhole)
    (a5 : Memref sig .tc .vmem S256x1 .f32) (h5 : a5.IsWhole) (hc0 : ¬cond0_0 i) (hc1 : cond0_1 i)
    (x0 x1 : Vec F S256x2048 .f32) (xo xs : Vec F S256x1 .f32) :
    sout0_C_0 c i a2 h2 a3 h3 a4 h4 a5 h5 hc0 hc1 x0 x1 xo xs = k0_pay1 (k0_pay6 x1) xs := by
  unfold sout0_C_0
  rw [View.read_writes_eq_canon _ _ _ (scover0_C_0 c i a2 h2 a3 h3 a4 h4 a5 h5 hc0 hc1 x0 x1 xo xs)]
  unfold kernelRun0_C
  dsimp only
  sl_unfold_words
  rw [View.canon_unit_zero hz]
  simp only [View.readCov_unit_zero (S := S256x1) _ hz, View.readAt_eq_ld, h2.read_unread, h3.read_unread, h4.read_unread,
    h5.read_unread, View.ld_unit_zero (S := S256x2048) hz, View.ld_unit_zero (S := S256x1) hz]

end Cert.KernelIdeal.Acc

end
-- ==== Proof.Payloads.lean ====
/-
  The kernel body's arithmetic read at an index, at the ideal values, and four column tiles of one row block put
  together.

  The tile's row sum of masked losses at row `r` is the sum over the tile's 2048 columns of `loss`; the tile's row
  count is the sum of `hit`: a lane reduction is a plain finite sum on extended reals, and the [256] → [256, 1]
  column cast reads position `r` at `(r, 0)`. The kernel's ordered-and-unequal comparison and the reference's
  unordered-or-unequal one are the same test `≠` on extended reals, and the kernel's and the host's square root are
  one function, so the summands are `loss` and `hit` by unfolding. Chaining four tiles from the zero blocks gives
  `(((0 + s₀) + s₁) + s₂) + s₃` and the same for the counts: by associativity, and since a sum over 8192 columns is
  the sum over four tiles of 2048, these are the whole row's sum and count; no distributivity is used, so no
  finiteness.
-/
import proofs.«180782_j18829136626194_1_alg».proof.Proof.Gen.KernelIdeal.Skeleton
import proofs.«180782_j18829136626194_1_alg».proof.Proof.Sums
import Idealize.ShloMosaic.Lib.Pipeline.Value
import Idealize.ShloMosaic.PureOps.Ideal.Laws

noncomputable section

namespace Cert.KernelIdeal.Pay

open Cert.KernelIdeal Cert.KernelIdeal.Gen Cert.Fidelity
open Idealize.ShloMosaic Idealize.ShloMosaic.ValueIdx

/-- The column cast [256] → [256, 1] reads position `r` at `(r, 0)`: the same row-major position. -/
theorem col_apply (v : S256.Idx → EReal) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]
    show r.val = r.val * 1 + 0
    omega)

/-- A lane sum of a [256, 2048] block at row `r` is the sum over the 2048 columns. -/
theorem lane_sum (src : FVec Ideal S256x2048 .f32) (hφ : FKind.Formats .f32)
    (hacc : (0x00000000#32 : BitVec 32) = 0x00000000#32) (r : Fin 256) :
    multiReduction .add [1] S256 src 0x00000000#32 reduces_S256x2048_S256 hφ hacc (ix1 r)
      = ∑ k : Fin 2048, src (ix2 r k) := by
  refine (Ideal.multiReduction_add_single src 0x00000000#32 reduces_S256x2048_S256 hφ hacc (ix1 r)).trans ?_
  refine Finset.sum_congr rfl fun k _ => congrArg src (funext fun a => Fin.ext ?_)
  match a with
  | ⟨0, _⟩ => rfl
  | ⟨1, _⟩ => rfl

/-- The output's update: what the buffer held plus the tile's row sum of masked losses. -/
theorem pay7_apply (x0 x1 : FVec Ideal S256x2048 .f32) (xo : FVec Ideal S256x1 .f32) (r : Fin 256) :
    k0_pay7 (F := Ideal) x0 x1 xo (ix2 r (0 : Fin 1))
      = xo (ix2 r (0 : Fin 1)) + ∑ k : Fin 2048, loss (x0 (ix2 r k)) (x1 (ix2 r k)) := by
  unfold k0_pay7
  refine congrArg₂ (· + ·) (congrFun (shapeCast_self xo _) _) ?_
  refine (col_apply _ r).trans ((lane_sum _ _ _ r).trans ?_)
  exact Finset.sum_congr rfl fun k _ => rfl

/-- The tile's row count: the sum over its columns of the widened mask bits read as numbers. -/
theorem pay6_apply (x1 : FVec Ideal S256x2048 .f32) (r : Fin 256) :
    k0_pay6 (F := Ideal) x1 (ix2 r (0 : Fin 1)) = ∑ k : Fin 2048, hit (x1 (ix2 r k)) := by
  unfold k0_pay6
  refine (col_apply _ r).trans ((lane_sum _ _ _ r).trans ?_)
  exact Finset.sum_congr rfl fun k _ => rfl

/-- The scratch's update: what it held plus the tile's row count. -/
theorem pay1_apply (v29 v34 : FVec Ideal S256x1 .f32) (y : S256x1.Idx) :
    k0_pay1 (F := Ideal) v29 v34 y = v34 y + v29 y := by
  unfold k0_pay1
  exact congrFun (shapeCast_self _ _) y

/-- The final quotient: the sum over the count (over one, when the count is below one) where the count is positive. -/
theorem pay2_apply (cn sm : FVec Ideal S256x1 .f32) (y : S256x1.Idx) :
    k0_pay2 (F := Ideal) cn sm y
      = Scalar.select (Ideal.cmp .ogt (cn y) zeroE) (Ideal.div (sm y) (max (cn y) oneE)) zeroE := by
  have e : shapeCast S256x1 sm shapeCasts_S256x1_S256x1 = sm := shapeCast_self sm _
  unfold k0_pay2
  rw [e]
  rfl

/-- The two zero blocks. -/
theorem pay3_apply (y : S256x1.Idx) : k0_pay3 (F := Ideal) y = zeroE := rfl
theorem pay4_apply (y : S256x1.Idx) : k0_pay4 (F := Ideal) y = zeroE := by
  unfold k0_pay4
  exact congrFun (shapeCast_self _ _) y

/-- The output block's running sum after the four column tiles of a row block, from the zero block. -/
def tileSum {F : FTy → Type} [FloatOps F] (p0 g0 p1 g1 p2 g2 p3 g3 : Vec F S256x2048 .f32) : FVec F S256x1 .f32 :=
  k0_pay7 (F := F) p3 g3 (k0_pay7 (F := F) p2 g2 (k0_pay7 (F := F) p1 g1 (k0_pay7 (F := F) p0 g0 (k0_pay3 (F := F)))))

/-- The scratch's running count after the four column tiles, from the zero block. -/
def tileCnt {F : FTy → Type} [FloatOps F] (g0 g1 g2 g3 : Vec F S256x2048 .f32) : FVec F S256x1 .f32 :=
  k0_pay1 (F := F) (k0_pay6 (F := F) g3) (k0_pay1 (F := F) (k0_pay6 (F := F) g2)
    (k0_pay1 (F := F) (k0_pay6 (F := F) g1) (k0_pay1 (F := F) (k0_pay6 (F := F) g0) (k0_pay4 (F := F)))))

/-- What the last column tile writes over the sums: the quotient of the two accumulated columns. -/
def blockOut {F : FTy → Type} [FloatOps F] (p0 g0 p1 g1 p2 g2 p3 g3 : Vec F S256x2048 .f32) : FVec F S256x1 .f32 :=
  k0_pay2 (F := F) (tileCnt g0 g1 g2 g3) (tileSum p0 g0 p1 g1 p2 g2 p3 g3)

/-- FOUR TILES OF ONE ROW BLOCK. If tile `j`'s blocks `p j`, `g j` hold, at `(r, k)`, the arrays' entries at row
    `256·i + r` and column `2048·j + k`, then the body's chain over the four tiles — reset, three updates, the final
    quotient — leaves at `(r, 0)` the row loss of row `256·i + r`. -/
theorem block_final (P G : Mat) (i : Fin 64) (p g : Fin 4 → FVec Ideal S256x2048 .f32)
    (hp : ∀ (j : Fin 4) (r : Fin 256) (k : Fin 2048), p j (ix2 r k)
      = P (ix2 ⟨256 * i.val + r.val, by have := i.isLt; have := r.isLt; omega⟩ ⟨2048 * j.val + k.val, by have := j.isLt; have := k.isLt; omega⟩))
    (hg : ∀ (j : Fin 4) (r : Fin 256) (k : Fin 2048), g j (ix2 r k)
      = G (ix2 ⟨256 * i.val + r.val, by have := i.isLt; have := r.isLt; omega⟩ ⟨2048 * j.val + k.val, by have := j.isLt; have := k.isLt; omega⟩))
    (r : Fin 256) :
    blockOut (F := Ideal) (p 0) (g 0) (p 1) (g 1) (p 2) (g 2) (p 3) (g 3) (ix2 r (0 : Fin 1))
      = rowLoss P G ⟨256 * i.val + r.val, by have := i.isLt; have := r.isLt; omega⟩ := by
  have hS : rowSum P G ⟨256 * i.val + r.val, by have := i.isLt; have := r.isLt; omega⟩
      = zeroE + (∑ k : Fin 2048, loss (p 0 (ix2 r k)) (g 0 (ix2 r k))) + (∑ k : Fin 2048, loss (p 1 (ix2 r k)) (g 1 (ix2 r k)))
        + (∑ k : Fin 2048, loss (p 2 (ix2 r k)) (g 2 (ix2 r k))) + (∑ k : Fin 2048, loss (p 3 (ix2 r k)) (g 3 (ix2 r k))) := by
    unfold rowSum
    rw [sum_tiles, Fin.sum_univ_four]
    simp only [hp, hg, add_assoc]
  have hC : rowCnt G ⟨256 * i.val + r.val, by have := i.isLt; have := r.isLt; omega⟩
      = zeroE + (∑ k : Fin 2048, hit (g 0 (ix2 r k))) + (∑ k : Fin 2048, hit (g 1 (ix2 r k)))
        + (∑ k : Fin 2048, hit (g 2 (ix2 r k))) + (∑ k : Fin 2048, hit (g 3 (ix2 r k))) := by
    unfold rowCnt
    rw [sum_tiles, Fin.sum_univ_four, show zeroE = 0 from Ideal.ofBits_zero_f32, zero_add]
    simp only [hg]
  unfold blockOut tileCnt tileSum
  rw [pay2_apply]
  simp only [pay7_apply, pay1_apply, pay6_apply, pay3_apply, pay4_apply]
  unfold rowLoss
  rw [hS, hC]

end Cert.KernelIdeal.Pay

end
-- ==== Proof.KerValue.lean ====
/-
  The kernel's result array, and its result after the host operations that follow the region.

  Grid point `4·i + j` is column tile `j` of row block `i`. What the output block's buffer and the count scratch hold
  after a point is, by the body's case at that point, a payload term of the point's two input blocks and of what the
  point before left; a row block's first tile starts from zero blocks, so unfolding four points back from a row
  block's last tile gives a closed term of that row block's eight input blocks (`blockOut`). The output block is written
  back only after a row block's last tile, those 64 write-backs tile the [16384, 1] array, and an input block's entry
  `(r, k)` at point `4·i + j` is the argument's entry `(256·i + r, 2048·j + k)`: so the array ends holding each row's
  loss. The host then sums the array, divides by 16384 and reshapes: the specification's mean.
-/
import proofs.«180782_j18829136626194_1_alg».proof.Proof.Pieces
import proofs.«180782_j18829136626194_1_alg».proof.Proof.Payloads
import Idealize.ShloMosaic.Lib.Pipeline.Value
import Idealize.ShloMosaic.Lib.StableHlo.Run
import Idealize.ShloMosaic.Lib.IdealHost

set_option maxRecDepth 16384

noncomputable section

namespace Cert.KernelIdeal.KerValue

open Cert.KernelIdeal Cert.KernelIdeal.Gen Cert.KernelIdeal.Acc Cert.KernelIdeal.Pay Cert.Fidelity
open Idealize.ShloMosaic Idealize.ShloMosaic.TcCoe Idealize.SL.Sem Idealize.ShloMosaic.ValueIdx
open Idealize.ShloMosaic.Pipeline (Dat)

/-! ## Point by point, at any float family -/

section Chain

variable {F : FTy → Type} [FloatOps F]
variable (m : (ℓ : Loc nD τ sig) → Buf (Elt F) ℓ)

/-- The four column tiles. -/
theorem lt0 : 0 < 4 := by decide
theorem lt1 : 1 < 4 := by decide
theorem lt2 : 2 < 4 := by decide
theorem lt3 : 3 < 4 := by decide

/-- Column tile `j` of row block `i` is grid point `4·i + j`. -/
def pt (i : Fin 64) (j : ℕ) (hj : j < 4) : Fin cfg0.N :=
  ⟨4 * i.val + j, by rw [show cfg0.N = 256 from N_0]; have := i.isLt; omega⟩

/-- The contents after a point depend on the point's number only. -/
theorem outs_congr (c : Dev nD) (n n' : ℕ) (e : n = n') (hn : n < cfg0.N) (hn' : n' < cfg0.N) :
    outsAt0 m c n hn = outsAt0 m c n' hn' := by
  subst e; rfl

/-- After a row block's FIRST tile: both accumulators are the tile's contribution over the zero blocks. -/
theorem stepA (c : Dev nD) (t : Fin cfg0.N) (h0 : t.val % 4 = 0) (h1 : ¬t.val % 4 = 3) :
    outsAt0 m c t.val t.isLt
      = (k0_pay7 (F := F) (iblk m c 0 t) (iblk m c 1 t) (k0_pay3 (F := F)),
         k0_pay1 (F := F) (k0_pay6 (F := F) (iblk m c 1 t)) (k0_pay4 (F := F))) :=
  (outsAt0_A m c t h0 h1).trans (congrArg₂ Prod.mk
    (out_A c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t))
    (cnt_A c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t)))

/-- After a MIDDLE tile: the tile's contribution over what the point before left. -/
theorem stepB (c : Dev nD) (t : Fin cfg0.N) (h0 : ¬t.val % 4 = 0) (h1 : ¬t.val % 4 = 3) :
    outsAt0 m c t.val t.isLt
      = (k0_pay7 (F := F) (iblk m c 0 t) (iblk m c 1 t) (outsAt0 m c (t.val - 1) (Nat.lt_of_le_of_lt (Nat.sub_le _ _) t.isLt)).1,
         k0_pay1 (F := F) (k0_pay6 (F := F) (iblk m c 1 t)) (outsAt0 m c (t.val - 1) (Nat.lt_of_le_of_lt (Nat.sub_le _ _) t.isLt)).2) :=
  (outsAt0_B m c t h0 h1).trans (congrArg₂ Prod.mk
    (out_B c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t) _ _)
    (cnt_B c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t) _ _))

/-- After the LAST tile: the output holds the quotient of the two updated accumulators. -/
theorem stepC (c : Dev nD) (t : Fin cfg0.N) (h0 : ¬t.val % 4 = 0) (h1 : t.val % 4 = 3) :
    outsAt0 m c t.val t.isLt
      = (k0_pay2 (F := F) (k0_pay1 (F := F) (k0_pay6 (F := F) (iblk m c 1 t)) (outsAt0 m c (t.val - 1) (Nat.lt_of_le_of_lt (Nat.sub_le _ _) t.isLt)).2)
           (k0_pay7 (F := F) (iblk m c 0 t) (iblk m c 1 t) (outsAt0 m c (t.val - 1) (Nat.lt_of_le_of_lt (Nat.sub_le _ _) t.isLt)).1),
         k0_pay1 (F := F) (k0_pay6 (F := F) (iblk m c 1 t)) (outsAt0 m c (t.val - 1) (Nat.lt_of_le_of_lt (Nat.sub_le _ _) t.isLt)).2) :=
  (outsAt0_C m c t h0 h1).trans (congrArg₂ Prod.mk
    (out_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) _ _)
    (cnt_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) _ _))

/-- The blocks of `p` and of `g` at column tile `j` of row block `i`. -/
abbrev pb (c : Dev nD) (i : Fin 64) (j : ℕ) (hj : j < 4) : Vec F S256x2048 .f32 := iblk m c 0 (pt i j hj)
abbrev gb (c : Dev nD) (i : Fin 64) (j : ℕ) (hj : j < 4) : Vec F S256x2048 .f32 := iblk m c 1 (pt i j hj)

theorem outs0 (c : Dev nD) (i : Fin 64) :
    outsAt0 m c (pt i 0 lt0).val (pt i 0 lt0).isLt
      = (k0_pay7 (F := F) (pb m c i 0 lt0) (gb m c i 0 lt0) (k0_pay3 (F := F)),
         k0_pay1 (F := F) (k0_pay6 (F := F) (gb m c i 0 lt0)) (k0_pay4 (F := F))) :=
  stepA m c (pt i 0 lt0) (by show (4 * i.val + 0) % 4 = 0; omega) (by show ¬(4 * i.val + 0) % 4 = 3; omega)

theorem outs1 (c : Dev nD) (i : Fin 64) :
    outsAt0 m c (pt i 1 lt1).val (pt i 1 lt1).isLt
      = (k0_pay7 (F := F) (pb m c i 1 lt1) (gb m c i 1 lt1)
           (k0_pay7 (F := F) (pb m c i 0 lt0) (gb m c i 0 lt0) (k0_pay3 (F := F))),
         k0_pay1 (F := F) (k0_pay6 (F := F) (gb m c i 1 lt1))
           (k0_pay1 (F := F) (k0_pay6 (F := F) (gb m c i 0 lt0)) (k0_pay4 (F := F)))) := by
  rw [stepB m c (pt i 1 lt1) (by show ¬(4 * i.val + 1) % 4 = 0; omega) (by show ¬(4 * i.val + 1) % 4 = 3; omega),
    outs_congr m c ((pt i 1 lt1).val - 1) (pt i 0 lt0).val (by show 4 * i.val + 1 - 1 = 4 * i.val + 0; omega) _
      (pt i 0 lt0).isLt,
    outs0]

theorem outs2 (c : Dev nD) (i : Fin 64) :
    outsAt0 m c (pt i 2 lt2).val (pt i 2 lt2).isLt
      = (k0_pay7 (F := F) (pb m c i 2 lt2) (gb m c i 2 lt2)
           (k0_pay7 (F := F) (pb m c i 1 lt1) (gb m c i 1 lt1)
             (k0_pay7 (F := F) (pb m c i 0 lt0) (gb m c i 0 lt0) (k0_pay3 (F := F)))),
         k0_pay1 (F := F) (k0_pay6 (F := F) (gb m c i 2 lt2))
           (k0_pay1 (F := F) (k0_pay6 (F := F) (gb m c i 1 lt1))
             (k0_pay1 (F := F) (k0_pay6 (F := F) (gb m c i 0 lt0)) (k0_pay4 (F := F))))) := by
  rw [stepB m c (pt i 2 lt2) (by show ¬(4 * i.val + 2) % 4 = 0; omega) (by show ¬(4 * i.val + 2) % 4 = 3; omega),
    outs_congr m c ((pt i 2 lt2).val - 1) (pt i 1 lt1).val (by show 4 * i.val + 2 - 1 = 4 * i.val + 1; omega) _
      (pt i 1 lt1).isLt,
    outs1]

/-- After a row block's last tile the output block's buffer holds the closed term of the row block's eight input blocks. -/
theorem outs3 (c : Dev nD) (i : Fin 64) :
    (outsAt0 m c (pt i 3 lt3).val (pt i 3 lt3).isLt).1
      = blockOut (F := F) (pb m c i 0 lt0) (gb m c i 0 lt0) (pb m c i 1 lt1) (gb m c i 1 lt1)
          (pb m c i 2 lt2) (gb m c i 2 lt2) (pb m c i 3 lt3) (gb m c i 3 lt3) := by
  rw [stepC m c (pt i 3 lt3) (by show ¬(4 * i.val + 3) % 4 = 0; omega) (by show (4 * i.val + 3) % 4 = 3; omega),
    outs_congr m c ((pt i 3 lt3).val - 1) (pt i 2 lt2).val (by show 4 * i.val + 3 - 1 = 4 * i.val + 2; omega) _
      (pt i 2 lt2).isLt,
    outs2]
  rfl

/-- The same at a point known only by its number: the last tile of row block `i`. -/
theorem outs_last (c : Dev nD) (t : Fin cfg0.N) (i : Fin 64) (hi : t.val = 4 * i.val + 3) :
    (outsAt0 m c t.val t.isLt).1
      = blockOut (F := F) (pb m c i 0 lt0) (gb m c i 0 lt0) (pb m c i 1 lt1) (gb m c i 1 lt1)
          (pb m c i 2 lt2) (gb m c i 2 lt2) (pb m c i 3 lt3) (gb m c i 3 lt3) := by
  rw [outs_congr m c t.val (pt i 3 lt3).val hi t.isLt (pt i 3 lt3).isLt]
  exact outs3 m c i

end Chain

/-! ## At the ideal values: the array and the result -/

section Value

variable (m : (ℓ : Loc nD τ sig) → Buf (Elt Ideal) ℓ) (ρ : Dev nD → PrngReg)

/-- The two argument arrays. -/
abbrev parr (c : Dev nD) : Mat := m ((c : Thread nD τ).loc main_arg0)
abbrev garr (c : Dev nD) : Mat := m ((c : Thread nD τ).loc main_arg1)

/-- The printed index maps over the grid: both inputs' block at point `t` is (t / 4, t % 4), the output's (t / 4, 0). -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 0 :=
  (by decide +kernel : ∀ t : Fin grid0.N, _)

/-- Entry `(r, k)` of `p`'s block at tile `j` of row block `i` is `p`'s entry `(256·i + r, 2048·j + k)`. -/
theorem pblk_apply (c : Dev nD) (i : Fin 64) (j : ℕ) (hj : j < 4) (r : Fin 256) (k : Fin 2048) :
    (iblk m c 0 (pt i j hj) : Vec Ideal S256x2048 .f32) (ix2 r k)
      = parr m c (ix2 ⟨256 * i.val + r.val, by have := i.isLt; have := r.isLt; omega⟩
          ⟨2048 * j + k.val, by have := k.isLt; omega⟩) := by
  obtain ⟨e0, e1, -, -, -, -⟩ := idx_facts (pt i j hj)
  unfold iblk
  rw [View.read_apply]
  show V m c main_arg0 _ = m ((c : Thread nD τ).loc main_arg0) _
  refine congrArg (m ((c : Thread nD τ).loc main_arg0)) (funext fun a => Fin.ext ?_)
  match a with
  | ⟨0, _⟩ =>
    show win0_0.index (pt i j hj) (0 : Fin 2) * 256 + 1 * r.val = 256 * i.val + r.val
    rw [e0]
    show (4 * i.val + j) / 4 * 256 + 1 * r.val = 256 * i.val + r.val
    omega
  | ⟨1, _⟩ =>
    show win0_0.index (pt i j hj) (1 : Fin 2) * 2048 + 1 * k.val = 2048 * j + k.val
    rw [e1]
    show (4 * i.val + j) % 4 * 2048 + 1 * k.val = 2048 * j + k.val
    omega

/-- The same for `g`. -/
theorem gblk_apply (c : Dev nD) (i : Fin 64) (j : ℕ) (hj : j < 4) (r : Fin 256) (k : Fin 2048) :
    (iblk m c 1 (pt i j hj) : Vec Ideal S256x2048 .f32) (ix2 r k)
      = garr m c (ix2 ⟨256 * i.val + r.val, by have := i.isLt; have := r.isLt; omega⟩
          ⟨2048 * j + k.val, by have := k.isLt; omega⟩) := by
  obtain ⟨-, -, e0, e1, -, -⟩ := idx_facts (pt i j hj)
  unfold iblk
  rw [View.read_apply]
  show V m c main_arg1 _ = m ((c : Thread nD τ).loc main_arg1) _
  refine congrArg (m ((c : Thread nD τ).loc main_arg1)) (funext fun a => Fin.ext ?_)
  match a with
  | ⟨0, _⟩ =>
    show win0_1.index (pt i j hj) (0 : Fin 2) * 256 + 1 * r.val = 256 * i.val + r.val
    rw [e0]
    show (4 * i.val + j) / 4 * 256 + 1 * r.val = 256 * i.val + r.val
    omega
  | ⟨1, _⟩ =>
    show win0_1.index (pt i j hj) (1 : Fin 2) * 2048 + 1 * k.val = 2048 * j + k.val
    rw [e1]
    show (4 * i.val + j) % 4 * 2048 + 1 * k.val = 2048 * j + k.val
    omega

/-- The output array after the run: each row's loss. -/
def rows (c : Dev nD) : S16384x1.Idx → EReal := fun y => rowLoss (parr m c) (garr m c) (y 0)

/-- Its entry at an index is the loss of the index's row. -/
theorem rows_apply (c : Dev nD) (y : S16384x1.Idx) (q : Fin 16384) (h : (y 0).val = q.val) :
    rows m c y = rowLoss (parr m c) (garr m c) q := by
  unfold rows
  exact congrArg (rowLoss (parr m c) (garr m c)) (Fin.ext h)

/-- WHAT A WRITE-BACK WRITES: after the last tile of row block `i`, rows `256·i …` of the row losses. -/
theorem flushed_eq (c : Dev nD) (t : Fin cfg0.N) (hf : (cfg0.win 2).flush t = true) :
    (dats m 0 c).flushed 2 t = ((cfg0.win 2).blk t).view.read (Elt Ideal) (rows m c) := by
  have h3 : t.val % 4 = 3 := (flush0_2 t).mp hf
  have hN : t.val < 256 := lt_of_lt_of_eq t.isLt (show cfg0.N = 256 from N_0)
  obtain ⟨i, hi⟩ : ∃ i : Fin 64, t.val = 4 * i.val + 3 := ⟨⟨t.val / 4, by omega⟩, by show t.val = 4 * (t.val / 4) + 3; omega⟩
  obtain ⟨-, -, -, -, e4, -⟩ := idx_facts t
  show (cfg0.win 2).cut (grid0.coords t) ((dats m 0 c).after 2 t) = _
  rw [after0_2, outs_last m c t i hi]
  funext y
  obtain ⟨r, z, rfl⟩ : ∃ (r : Fin 256) (z : Fin 1), y = ix2 r z := ⟨y 0, y 1, eq_ix2 y⟩
  obtain rfl : z = 0 := Subsingleton.elim _ _
  refine (block_final (parr m c) (garr m c) i (fun j => iblk m c 0 (pt i j.val j.isLt)) (fun j => iblk m c 1 (pt i j.val j.isLt))
    (fun j r k => pblk_apply m c i j.val j.isLt r k) (fun j r k => gblk_apply m c i j.val j.isLt r k) r).trans ?_
  rw [View.read_apply]
  refine Eq.trans ?_ (cast_eq _ _).symm
  refine (rows_apply m c _ ⟨256 * i.val + r.val, by have := i.isLt; have := r.isLt; omega⟩ ?_).symm
  show win0_2.index t (0 : Fin 2) * 256 + 1 * r.val = 256 * i.val + r.val
  rw [e4]
  omega

/-- An index of the array is in point `t`'s block iff each coordinate is in the block's range on its axis. -/
theorem mem_blk (t : Fin cfg0.N) (y : S16384x1.Idx) :
    y ∈ ((cfg0.win 2).blk t).view.set
      ↔ ∀ a : Fin 2, win0_2.index t a * S256x1.size a ≤ (y a).val ∧ (y a).val < win0_2.index t a * S256x1.size a + S256x1.size a := by
  show y ∈ ((View.whole main_v0).slice (win0_2.rect t)).set ↔ _
  rw [View.set_slice_whole, Rect.mem_set_unit]
  exact Iff.rfl

/-- THE ARRAY after the run: row `q` is written back after the last tile of row block `q / 256`. -/
theorem final_rows (c : Dev nD) : (dats m 0 c).arrAt 2 cfg0.N = rows m c :=
  (dats m 0 c).arrAt_eq_of_cover 2 (rows m c) (flushed_eq m c) fun y => by
    have hy0 : (y 0).val < 16384 := (y 0).isLt
    have hy1 : (y 1).val < 1 := (y 1).isLt
    obtain ⟨-, -, -, -, e4, e5⟩ := idx_facts (pt ⟨(y 0).val / 256, by omega⟩ 3 lt3)
    refine ⟨pt ⟨(y 0).val / 256, by omega⟩ 3 lt3,
      (flush0_2 _).mpr (by show (4 * ((y 0).val / 256) + 3) % 4 = 3; omega), ?_⟩
    rw [mem_blk]
    intro a
    match a with
    | ⟨0, _⟩ =>
      show win0_2.index (pt ⟨(y 0).val / 256, by omega⟩ 3 lt3) (0 : Fin 2) * 256 ≤ (y 0).val
        ∧ (y 0).val < win0_2.index (pt ⟨(y 0).val / 256, by omega⟩ 3 lt3) (0 : Fin 2) * 256 + 256
      rw [e4]
      show (4 * ((y 0).val / 256) + 3) / 4 * 256 ≤ (y 0).val ∧ (y 0).val < (4 * ((y 0).val / 256) + 3) / 4 * 256 + 256
      omega
    | ⟨1, _⟩ =>
      show win0_2.index (pt ⟨(y 0).val / 256, by omega⟩ 3 lt3) (1 : Fin 2) * 1 ≤ (y 1).val
        ∧ (y 1).val < win0_2.index (pt ⟨(y 0).val / 256, by omega⟩ 3 lt3) (1 : Fin 2) * 1 + 1
      rw [e5]
      omega

/-- THE RESULT: the host operations after the region — the sum of the [16384, 1] array from zero, the division by
    16384, the reshape to [1, 1] — leave the mean of the row losses. -/
theorem tail_eq (c : Dev nD) :
    Pipeline.afterTail₀ cfgs (dats m) 0 (V0 m) [hostOps1] c main_v3 = mean (parr m c) (garr m c) shapeCasts_S_S1x1 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0)
      = rows m c :=
    (Pipeline.withArrays_arr spec0 launch0.win.arr_inj c _ _ 2).trans (final_rows m c)
  rw [e]
  unfold mean
  refine congrArg (fun z : S_.Idx → EReal =>
    shapeCast S1x1 (Host.divf (F := Ideal) z (constant S_ .f32 0x46800000#32)) shapeCasts_S_S1x1) (funext fun j => ?_)
  refine (Ideal.hostReduceAdd_total reducesTo_S16384x1_S_d0_1 (fun b => b.elim0) (rows m c) _ j).trans ?_
  unfold total
  refine congrArg₂ (· + ·) rfl ?_
  rw [sum_idx2]
  refine Finset.sum_congr rfl fun a _ => ?_
  rw [Fin.sum_univ_one]
  rfl

/-- `main_v3`, the result of the last host operation, is neither scoped nor one of the region's three arrays. -/
theorem main_v3_rest : main_v3 ∈ Pipeline.restRefs sig cfg0.spec :=
  Pipeline.mem_restRefs_of main_v3 rfl (fun w => by fin_cases w <;> decide)

/-- THE RUN, READ: every weakly fair execution of @main terminates with the result at the mean of the row losses of
    the argument arrays, and the arguments unchanged. -/
theorem run : θ_run defs (onTc (τ := τ) (main (F := Ideal))) ⟨m, fun _ => 0, ρ⟩ fun r => ∀ c : Dev nD,
      r.2.mem ((c : Thread nD τ).loc main_v3) = mean (parr m c) (garr m c) shapeCasts_S_S1x1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v3 main_v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Value

end Cert.KernelIdeal.KerValue

end
-- ==== Proof.lean ====
/-
  The kernel streams `p` and `g` (16384 × 8192) in 256 × 2048 tiles, row block by row block: over a row block's four
  column tiles it accumulates, per row, the sum of the masked fidelity loss and the count of entries with `g ≠ 0`,
  and after the fourth tile writes the row's quotient; the host then averages the 16384 row values. The reference
  computes the same per row over all 8192 columns at once, its count taken in 32-bit integers, and averages.

  Over the extended reals both are the specification's `mean` (Proof/Spec.lean): a sum over 8192 columns is the sum
  over four tiles of 2048 (associativity and commutativity of `+` only, which hold at the infinities too, so the
  precondition is not used); the integer count of at most 8192 set bits, converted, is the float sum of the bits; the
  comparison `≠` and the square root are each one function on both sides; the literals are the same words.
  The frames of the two kernel programs are the generated ones; the reference's is its run with the result dropped.
  The ideal pass rewrote nothing, so there is nothing to preserve.
-/
import proofs.«180782_j18829136626194_1_alg».proof.Defs
import proofs.«180782_j18829136626194_1_alg».proof.Proof.Gen.Kernel
import proofs.«180782_j18829136626194_1_alg».proof.Proof.Gen.Kernel.Skeleton
import proofs.«180782_j18829136626194_1_alg».proof.Proof.Gen.Kernel.Launch
import proofs.«180782_j18829136626194_1_alg».proof.Proof.Gen.Kernel.Points
import proofs.«180782_j18829136626194_1_alg».proof.Proof.Gen.Kernel.Frame
import proofs.«180782_j18829136626194_1_alg».proof.Proof.Gen.KernelIdeal
import proofs.«180782_j18829136626194_1_alg».proof.Proof.Gen.KernelIdeal.Skeleton
import proofs.«180782_j18829136626194_1_alg».proof.Proof.Gen.KernelIdeal.Launch
import proofs.«180782_j18829136626194_1_alg».proof.Proof.Gen.KernelIdeal.Points
import proofs.«180782_j18829136626194_1_alg».proof.Proof.Gen.KernelIdeal.Frame
import proofs.«180782_j18829136626194_1_alg».proof.Proof.Gen.ReferenceIdeal
import proofs.«180782_j18829136626194_1_alg».proof.Proof.Gen.Pre_finite_inputs
import proofs.«180782_j18829136626194_1_alg».proof.Proof.RefValue
import proofs.«180782_j18829136626194_1_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the mean of the row losses of their argument arrays, and the arrays agree. -/
theorem algebraic : Cert.algebraic_KernelIdeal_ReferenceIdeal := by
  intro m ρ m' ρ' _ hagree
  refine ⟨fun c => Cert.Fidelity.mean (Cert.KernelIdeal.KerValue.parr m c) (Cert.KernelIdeal.KerValue.garr m c)
    Cert.KernelIdeal.Gen.shapeCasts_S_S1x1, Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
